-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x2048 32) (main_arg2 : FVec F S11008 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S4096x11008 : Shape := ⟨2, ![4096, 11008]⟩
abbrev S8192x4096 : Shape := ⟨2, ![8192, 4096]⟩
abbrev S1x11008 : Shape := ⟨2, ![1, 11008]⟩
abbrev S8192x11008 : Shape := ⟨2, ![8192, 11008]⟩
abbrev S4x2048x11008 : Shape := ⟨3, ![4, 2048, 11008]⟩
abbrev S1024x4096 : Shape := ⟨2, ![1024, 4096]⟩
abbrev S4096x256 : Shape := ⟨2, ![4096, 256]⟩
abbrev S1x256 : Shape := ⟨2, ![1, 256]⟩
abbrev S1024x256 : Shape := ⟨2, ![1024, 256]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S11008x2048x1, .i32⟩
  | .hbm, ⟨14, _⟩ => ⟨S11008x2048x1, .i32⟩
  | .hbm, ⟨15, _⟩ => ⟨S11008x2048x2, .i32⟩
  | .hbm, ⟨16, _⟩ => ⟨S11008x4096, .i32⟩
  | .hbm, ⟨17, _⟩ => ⟨S_, .i32⟩
  | .hbm, ⟨18, _⟩ => ⟨S11008x4096, .i32⟩
  | .hbm, ⟨19, _⟩ => ⟨S11008x4096, .i32⟩
  | .hbm, ⟨20, _⟩ => ⟨S11008x4096, .f32⟩
  | .hbm, ⟨21, _⟩ => ⟨S11008x1, .f32⟩
  | .hbm, ⟨22, _⟩ => ⟨S11008x4096, .f32⟩
  | .hbm, ⟨23, _⟩ => ⟨S11008x4096, .f32⟩
  | .hbm, ⟨24, _⟩ => ⟨S11008x4096, .bf16⟩
  | .hbm, ⟨25, _⟩ => ⟨S4096x11008, .bf16⟩
  | .hbm, ⟨26, _⟩ => ⟨S8192x4096, .f32⟩
  | .hbm, ⟨27, _⟩ => ⟨S8192x4096, .bf16⟩
  | .hbm, ⟨28, _⟩ => ⟨S1x11008, .f32⟩
  | .hbm, ⟨29, _⟩ => ⟨S8192x11008, .f32⟩
  | .hbm, ⟨30, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bitsLt_bf16_f32 : FTy.bits .bf16 < FTy.bits .f32
  transposes_S11008x4096_S4096x11008_1_0 : S11008x4096.Transposes [1, 0] S4096x11008
  shapeCasts_S4x2048x4096_S8192x4096 : S4x2048x4096.ShapeCasts S8192x4096
  shapeCasts_S11008_S1x11008 : S11008.ShapeCasts S1x11008
  shapeCasts_S8192x11008_S4x2048x11008 : S8192x11008.ShapeCasts S4x2048x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .bf16 = 32 ∨ (Rect.block (s := S4096x11008) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_call0_v19) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S11008x2048x1, .i32⟩
  | .hbm, ⟨14, _⟩ => ⟨S11008x2048x1, .i32⟩
  | .hbm, ⟨15, _⟩ => ⟨S11008x2048x2, .i32⟩
  | .hbm, ⟨16, _⟩ => ⟨S11008x4096, .i32⟩
  | .hbm, ⟨17, _⟩ => ⟨S_, .i32⟩
  | .hbm, ⟨18, _⟩ => ⟨S11008x4096, .i32⟩
  | .hbm, ⟨19, _⟩ => ⟨S11008x4096, .i32⟩
  | .hbm, ⟨20, _⟩ => ⟨S11008x4096, .f32⟩
  | .hbm, ⟨21, _⟩ => ⟨S11008x1, .f32⟩
  | .hbm, ⟨22, _⟩ => ⟨S11008x4096, .f32⟩
  | .hbm, ⟨23, _⟩ => ⟨S11008x4096, .f32⟩
  | .hbm, ⟨24, _⟩ => ⟨S4x2048x11008, .f32⟩
  | .hbm, ⟨25, _⟩ => ⟨S1x1x11008, .f32⟩
  | .hbm, ⟨26, _⟩ => ⟨S4x2048x11008, .f32⟩
  | .hbm, ⟨27, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The function both programs compute.

  A linear layer `y = x · wᵀ + b`: for a batch index `b`, a sequence position `s` and an output channel `o`,
      y b s o = (Σ i, x b s i · w o i) + b o ,
  the sum over the 4096 input features, taken in the extended reals. It is stated once, over literal shapes, so
  that the kernel's result and the reference's result can be posted as the SAME term of the argument arrays.
-/
import Idealize.ShloMosaic.PureOps.Ideal
import Idealize.ShloMosaic.Lib.ValueIdx

noncomputable section

namespace QLinear

open Idealize.ShloMosaic Idealize.ShloMosaic.ValueIdx

/-- `linear x w b` at `(b, s, o)`: row `(b, s)` of the activations against row `o` of the weights, plus the
    bias of channel `o`. -/
def linear (x : (⟨3, ![4, 2048, 4096]⟩ : Shape).Idx → EReal) (w : (⟨2, ![11008, 4096]⟩ : Shape).Idx → EReal)
    (b : (⟨1, ![11008]⟩ : Shape).Idx → EReal) : (⟨3, ![4, 2048, 11008]⟩ : Shape).Idx → EReal :=
  fun i => (∑ k : Fin 4096, x (ix3 (i 0) (i 1) k) * w (ix2 (i 2) k)) + b (ix1 (i 2))

theorem linear_apply (x : (⟨3, ![4, 2048, 4096]⟩ : Shape).Idx → EReal) (w : (⟨2, ![11008, 4096]⟩ : Shape).Idx → EReal)
    (b : (⟨1, ![11008]⟩ : Shape).Idx → EReal) (n : Fin 4) (s : Fin 2048) (o : Fin 11008) :
    linear x w b (ix3 n s o) = (∑ k : Fin 4096, x (ix3 n s k) * w (ix2 o k)) + b (ix1 o) := rfl

end QLinear

end
-- ==== Proof.TileValue.lean ====
/-
  One grid point's tile, read at an index.

  The body of the kernel loads an activation tile `x0` (1024 rows by the whole contraction axis of 4096), a
  weight tile `x1` (4096 by 256 output channels) and a bias row `x2` (1 by 256), multiplies the two tiles into a
  zero accumulator and adds the bias row to every row of the product. Over the extended reals a product into a
  zero accumulator is the plain sum over the contraction axis, so the tile the body stores holds, at row `p` and
  channel `q`,
      (Σ k, x0 p k · x1 k q) + x2 0 q .
-/
import proofs.«430856_j52544629899270_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx

/-! ## The product's operand indices, coordinate by coordinate

At output index `i = (row, channel)` and contraction index `q` the left operand is read at `(row, q)` and the right
operand at `(q, channel)`. -/

theorem lhs_row (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhs_contr (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhs_contr (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhs_chan (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-! ## The stored tile at an index -/

/-- The tile the body stores, at row `p` and channel `q`: the sum over the contraction axis of the activation
    tile's row `p` against the weight tile's column `q`, plus the bias row at `q`. -/
theorem pay_apply (x0 : Vec Ideal S1024x4096 .bf16) (x1 : Vec Ideal S4096x256 .bf16) (x2 : Vec Ideal S1x256 .f32)
    (p : Fin 1024) (q : Fin 256) :
    k0_pay1 (F := Ideal) x0 x1 x2 (ix2 p q)
      = (∑ k : Fin 4096, x0 (ix2 p k) * x1 (ix2 k q)) + x2 (ix2 (0 : Fin 1) q) := by
  unfold k0_pay1
  rw [addf_apply, shapeCast_self, shapeCast_self, shapeCast_self, broadcastTo_1b_ab_apply]
  simp only [matmul]
  rw [Ideal.matmul_constant_zero_apply, ← Equiv.sum_comp (contrEquiv1 dot_S1024x4096_S4096x256_S1024x256_1_0_0_1_n_n 4096 rfl rfl).symm]
  refine congrArg (· + x2 (ix2 (0 : Fin 1) q)) (Finset.sum_congr rfl fun k _ => ?_)
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun a => Fin.ext (by
    match a with
    | ⟨0, _⟩ => exact lhs_row _ _
    | ⟨1, _⟩ => exact (lhs_contr _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun a => Fin.ext (by
    match a with
    | ⟨0, _⟩ => exact (rhs_contr _ _).trans hk
    | ⟨1, _⟩ => exact rhs_chan _ _)
  rw [el, er]

end Cert.KernelIdeal.Tile

end
-- ==== Proof.ArrayValue.lean ====
/-
  The kernel's result array.

  Before the region the host code dequantizes the weight (`wdeq`: each packed word gives two 4-bit values, low
  nibble first; 7 is subtracted and the row's scale multiplied in), transposes it to (4096 × 11008), flattens the
  activations to (8192 × 4096) and views the bias as one row (1 × 11008). The region runs the tile body on a grid of
  8 × 43 points: point (i, j) takes rows 1024·i … of the activations, columns 256·j … of the transposed weight and
  of the bias row, and writes rows 1024·i …, columns 256·j … of the (8192 × 11008) product. Those tiles fill the
  product array, so after the region it holds, at (r, o),  (Σ k, act r k · wT k o) + biasrow 0 o.  The last host
  line views that array as (4 × 2048 × 11008). Read back through the layout changes this is `QLinear.linear` of the
  activations, the dequantized weight and the bias.
-/
import proofs.«430856_j52544629899270_3_alg».proof.Proof.Gen.KernelIdeal.Frame
import proofs.«430856_j52544629899270_3_alg».proof.Proof.TileValue
import proofs.«430856_j52544629899270_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host lines before the region -/

/-- The dequantized weight, (11008 × 4096): the low and the high nibble of each packed word interleaved along the
    feature axis, less 7, as a float, times the row's scale. -/
def wdeq (packed : (⟨S11008x2048, .i32⟩ : BufTy).Contents (Elt Ideal)) (scale : (⟨S11008, .f32⟩ : BufTy).Contents (Elt Ideal)) :
    (⟨S11008x4096, .f32⟩ : BufTy).Contents (Elt Ideal) :=
  mulf (F := Ideal) (sitofp .f32 (subi (shapeCast _ (concatenate S11008x2048x2 2 [⟨S11008x2048x1, (broadcastInDim S11008x2048x1 ![0, 1] bcast_S11008x2048_S11008x2048x1_0_1 (andi packed (broadcastInDim S11008x2048 ![] bcast_S_S11008x2048 (constantI S_ 32 15#32))))⟩, ⟨S11008x2048x1, (broadcastInDim S11008x2048x1 ![0, 1] bcast_S11008x2048_S11008x2048x1_0_1 (andi (Host.shrsi packed (broadcastInDim S11008x2048 ![] bcast_S_S11008x2048 (constantI S_ 32 4#32))) (broadcastInDim S11008x2048 ![] bcast_S_S11008x2048 (constantI S_ 32 15#32))))⟩] concatenates_S11008x2048x1_S11008x2048x1_S11008x2048x2_d2) shapeCasts_S11008x2048x2_S11008x4096) (broadcastInDim S11008x4096 ![] bcast_S_S11008x4096 (constantI S_ 32 7#32)))) (broadcastInDim S11008x4096 ![0, 1] bcast_S11008x1_S11008x4096_0_1 (broadcastInDim S11008x1 ![0] bcast_S11008_S11008x1_0 scale))

/-- The three arrays the region's input windows are cut from, as the region finds them: the flattened activations,
    the transposed dequantized weight, the bias as one row. -/
abbrev actArr (c : Dev nD) : S8192x4096.Idx → EReal := V m c main_call0_v19
abbrev wTArr (c : Dev nD) : S4096x11008.Idx → EReal := V m c main_call0_v17
abbrev biasRow (c : Dev nD) : S1x11008.Idx → EReal := V m c main_call0_v20

/-- The flattened activations are the activations viewed as (8192 × 4096). -/
theorem act_eq (c : Dev nD) : actArr m c
    = truncf (F := Ideal) .bf16 (shapeCast S8192x4096 (m ((c.tc : Thread nD τ).loc main_arg0)) shapeCasts_S4x2048x4096_S8192x4096) bitsLt_bf16_f32 := by
  show StableHlo.after hostOps0 (fun b => m (c, b)) (Proc.devRef .tc main_call0_v19) = _
  after_results
  rfl

/-- The weight array is the dequantized weight transposed. -/
theorem wT_eq (c : Dev nD) : wTArr m c
    = transpose S4096x11008 [1, 0] (truncf (F := Ideal) .bf16 (wdeq (m ((c.tc : Thread nD τ).loc main_arg1)) (m ((c.tc : Thread nD τ).loc main_arg2))) bitsLt_bf16_f32) transposes_S11008x4096_S4096x11008_1_0 := by
  show StableHlo.after hostOps0 (fun b => m (c, b)) (Proc.devRef .tc main_call0_v17) = _
  after_results
  rfl

/-- The bias row is the bias viewed as (1 × 11008). -/
theorem biasrow_eq (c : Dev nD) : biasRow m c
    = shapeCast S1x11008 (m ((c.tc : Thread nD τ).loc main_arg3)) shapeCasts_S11008_S1x11008 := by
  show StableHlo.after hostOps0 (fun b => m (c, b)) (Proc.devRef .tc main_call0_v20) = _
  after_results
  rfl

/-! ## The three arrays at an index -/

/-- Row `n·2048 + s` of the flattened activations is row `(n, s)` of the activations. -/
theorem act_apply (c : Dev nD) (n : Fin 4) (s : Fin 2048) (k : Fin 4096) :
    actArr m c (ix2 (⟨n.val * 2048 + s.val, by have := n.isLt; have := s.isLt; omega⟩ : Fin 8192) k)
      = m ((c.tc : Thread nD τ).loc main_arg0) (ix3 n s k) := by
  rw [act_eq, truncf_apply]
  refine shapeCast_apply _ _ _ _ ?_
  show (S4x2048x4096.rowMajor (ix3 n s k)).val = (S8192x4096.rowMajor (ix2 (⟨n.val * 2048 + s.val, by have := n.isLt; have := s.isLt; omega⟩ : Fin 8192) k)).val
  rw [Shape.rowMajor_val_three, Shape.rowMajor_val_two]
  rfl

/-- The transposed weight at `(k, o)` is the dequantized weight at `(o, k)`. -/
theorem wT_apply (c : Dev nD) (k : Fin 4096) (o : Fin 11008) :
    wTArr m c (ix2 k o)
      = wdeq (m ((c.tc : Thread nD τ).loc main_arg1)) (m ((c.tc : Thread nD τ).loc main_arg2)) (ix2 o k) := by
  rw [wT_eq, transpose_ix2_apply, truncf_apply]

/-- The bias row at `(0, o)` is the bias at `o`. -/
theorem biasrow_apply (c : Dev nD) (o : Fin 11008) :
    biasRow m c (ix2 (0 : Fin 1) o) = m ((c.tc : Thread nD τ).loc main_arg3) (ix1 o) := by
  rw [biasrow_eq]
  exact shapeCast_a_1a_apply _ _ _ _

/-! ## The product array as one function -/

/-- What the (8192 × 11008) array holds after the region: at `(r, o)`, row `r` of the flattened activations against
    column `o` of the transposed weight, plus the bias row at `o`. -/
def prod (c : Dev nD) : S8192x11008.Idx → EReal := fun i =>
  (∑ k : Fin 4096, actArr m c (ix2 (i 0) k) * wTArr m c (ix2 k (i 1))) + biasRow m c (ix2 (0 : Fin 1) (i 1))

theorem offsets_zero : (![0, 0] : Fin 2 → Nat) = fun _ => 0 := funext fun a => by fin_cases a <;> rfl

/-- A stored tile whose three input tiles are cut from three arrays `A0`, `A1`, `A2` — the activation tile's row `p`
    being row `R` of `A0`, the weight tile's column `q` column `O` of `A1`, the bias tile at `q` the row `A2` at `O` —
    holds at `(p, q)` the product of the arrays at `(R, O)`. -/
theorem tile_eq (A0 : S8192x4096.Idx → EReal) (A1 : S4096x11008.Idx → EReal) (A2 : S1x11008.Idx → EReal)
    (x0 : Vec Ideal S1024x4096 .bf16) (x1 : Vec Ideal S4096x256 .bf16) (x2 : Vec Ideal S1x256 .f32)
    (R : Fin 8192) (O : Fin 11008) (p : Fin 1024) (q : Fin 256)
    (h0 : ∀ k : Fin 4096, x0 (ix2 p k) = A0 (ix2 R k))
    (h1 : ∀ k : Fin 4096, x1 (ix2 k q) = A1 (ix2 k O))
    (h2 : x2 (ix2 (0 : Fin 1) q) = A2 (ix2 (0 : Fin 1) O)) :
    k0_pay1 (F := Ideal) x0 x1 x2 (ix2 p q) = (∑ k : Fin 4096, A0 (ix2 R k) * A1 (ix2 k O)) + A2 (ix2 (0 : Fin 1) O) := by
  rw [Tile.pay_apply, h2]
  exact congrArg (· + A2 (ix2 (0 : Fin 1) O)) (Finset.sum_congr rfl fun k _ => by rw [h0 k, h1 k])

/-- The index maps over the grid: point `t` is `(t / 43, t % 43)`; the activations' window follows the first
    coordinate, the weight's and the bias row's the second, the product's both. -/
theorem idx_facts : ∀ t : Fin cfg0.N,
    win0_0.index t (0 : Fin 2) = t.val / 43 ∧ win0_0.index t (1 : Fin 2) = 0
    ∧ win0_1.index t (0 : Fin 2) = 0 ∧ win0_1.index t (1 : Fin 2) = t.val % 43
    ∧ win0_2.index t (0 : Fin 2) = 0 ∧ win0_2.index t (1 : Fin 2) = t.val % 43
    ∧ win0_3.index t (0 : Fin 2) = t.val / 43 ∧ win0_3.index t (1 : Fin 2) = t.val % 43 :=
  (by decide +kernel : ∀ t : Fin grid0.N, _)

/-- WHAT POINT `t` WRITES BACK is tile `t` of `prod`. -/
theorem flushed_eq (c : Dev nD) (t : Fin cfg0.N) :
    (dats m 0 c).flushed 3 t = ((cfg0.win 3).blk t).view.read (Elt Ideal) (prod m c) := by
  show (cfg0.win 3).cut (grid0.coords t) ((dats m 0 c).after 3 t) = _
  rw [after0_3]
  unfold out0_3
  rw [View.canon_unit_zero offsets_zero]
  simp only [View.ld_unit_zero (S := S1024x4096) offsets_zero, View.ld_unit_zero (S := S4096x256) offsets_zero, View.ld_unit_zero (S := S1x256) offsets_zero]
  obtain ⟨e00, e01, e10, e11, e20, e21, e30, e31⟩ := idx_facts t
  funext j
  obtain ⟨p, q, rfl⟩ : ∃ (p : Fin 1024) (q : Fin 256), j = ix2 p q := ⟨j 0, j 1, eq_ix2 j⟩
  show k0_pay1 (F := Ideal) (iblk m c 0 t) (iblk m c 1 t) (iblk m c 2 t) (ix2 p q) = prod m c (((cfg0.win 3).blk t).view.emb (ix2 p q))
  refine tile_eq (actArr m c) (wTArr m c) (biasRow m c) (iblk m c 0 t) (iblk m c 1 t) (iblk m c 2 t)
    ((((cfg0.win 3).blk t).view.emb (ix2 p q)) 0) ((((cfg0.win 3).blk t).view.emb (ix2 p q)) 1) p q ?_ ?_ ?_
  · intro k
    show V m c main_call0_v19 (((cfg0.win 0).blk t).view.emb (ix2 p k)) = V m c main_call0_v19 (ix2 ((((cfg0.win 3).blk t).view.emb (ix2 p q)) 0) k)
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 4096 + 1 * k.val = k.val; omega
  · intro k
    show V m c main_call0_v17 (((cfg0.win 1).blk t).view.emb (ix2 k q)) = V m c main_call0_v17 (ix2 k ((((cfg0.win 3).blk t).view.emb (ix2 p q)) 1))
    refine congrArg _ (funext fun a => Fin.ext ?_)
    match a with
    | ⟨0, _⟩ => show win0_1.index t (0 : Fin 2) * 4096 + 1 * k.val = k.val; omega
    | ⟨1, _⟩ => show win0_1.index t (1 : Fin 2) * 256 + 1 * q.val = win0_3.index t (1 : Fin 2) * 256 + 1 * q.val; omega
  · show V m c main_call0_v20 (((cfg0.win 2).blk t).view.emb (ix2 (0 : Fin 1) q)) = V m c main_call0_v20 (ix2 (0 : Fin 1) ((((cfg0.win 3).blk t).view.emb (ix2 p q)) 1))
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-! ## The tiles fill the product array -/

/-- An index of the product array is in point `t`'s tile iff each coordinate is in the tile's range on its axis. -/
theorem mem_blk (t : Fin cfg0.N) (i : S8192x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_call0_v21).slice (win0_3.rect t)).set ↔ _
  rw [View.set_slice_whole, Rect.mem_set_unit]
  exact Iff.rfl

/-- `(r, o)` lies in the tile of the grid point `(r / 1024, o / 256)`, which is point `(r / 1024) · 43 + o / 256`. -/
theorem cover (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : (i 0).val / 1024 * 43 + (i 1).val / 256 < cfg0.N := by
    show _ < grid0.N
    rw [N_0]; omega
  obtain ⟨-, -, -, -, -, -, e30, e31⟩ := idx_facts ⟨_, hN⟩
  have f30 : win0_3.index ⟨_, hN⟩ (0 : Fin 2) = ((i 0).val / 1024 * 43 + (i 1).val / 256) / 43 := e30
  have f31 : win0_3.index ⟨_, hN⟩ (1 : Fin 2) = ((i 0).val / 1024 * 43 + (i 1).val / 256) % 43 := e31
  refine ⟨⟨_, hN⟩, flush0_3 _, ?_⟩
  rw [mem_blk]
  intro a
  match a with
  | ⟨0, _⟩ =>
    show win0_3.index ⟨_, hN⟩ (0 : Fin 2) * 1024 ≤ (i 0).val ∧ (i 0).val < win0_3.index ⟨_, hN⟩ (0 : Fin 2) * 1024 + 1024
    omega
  | ⟨1, _⟩ =>
    show win0_3.index ⟨_, hN⟩ (1 : Fin 2) * 256 ≤ (i 1).val ∧ (i 1).val < win0_3.index ⟨_, hN⟩ (1 : Fin 2) * 256 + 256
    omega

/-- THE PRODUCT ARRAY after the region is `prod`. -/
theorem final (c : Dev nD) : (dats m 0 c).arrAt 3 cfg0.N = prod m c :=
  (dats m 0 c).arrAt_eq_of_cover 3 (prod m c) (fun t _ => flushed_eq m c t) cover

/-! ## The last host line, and the result read back -/

/-- The result is the product array viewed as (4 × 2048 × 11008). -/
theorem tail_eq (c : Dev nD) :
    Pipeline.afterTail₀ cfgs (dats m) 0 (V0 m) [hostOps1] c main_v0
      = shapeCast S4x2048x11008 (prod m c) shapeCasts_S8192x11008_S4x2048x11008 := by
  unfold Pipeline.afterTail₀
  show StableHlo.after hostOps1 _ (Proc.devRef .tc main_v0) = _
  after_results
  have e := (Pipeline.withArrays_arr spec0 launch0.win.arr_inj c (V0 m c) (fun w => (dats m 0 c).arrAt w (cfgs 0).N) 3).trans (final m c)
  exact congrArg (fun A => shapeCast S4x2048x11008 A shapeCasts_S8192x11008_S4x2048x11008) e

/-- At `(n, s, o)` the result is `linear` of the activations, the dequantized weight and the bias: row `n·2048 + s` of the
    product array, its activations row `(n, s)`, its weight column `o` the dequantized weight's row `o`. -/
theorem result_apply (c : Dev nD) (n : Fin 4) (s : Fin 2048) (o : Fin 11008) :
    shapeCast S4x2048x11008 (prod m c) shapeCasts_S8192x11008_S4x2048x11008 (ix3 n s o)
      = QLinear.linear (m ((c.tc : Thread nD τ).loc main_arg0)) (wdeq (m ((c.tc : Thread nD τ).loc main_arg1)) (m ((c.tc : Thread nD τ).loc main_arg2))) (m ((c.tc : Thread nD τ).loc main_arg3)) (ix3 n s o) := by
  have hr : n.val * 2048 + s.val < 8192 := by have := n.isLt; have := s.isLt; omega
  rw [shapeCast_apply (prod m c) shapeCasts_S8192x11008_S4x2048x11008 (ix3 n s o) (ix2 (⟨n.val * 2048 + s.val, hr⟩ : Fin 8192) o) (by
      rw [Shape.rowMajor_val_three, Shape.rowMajor_val_two]; rfl), QLinear.linear_apply]
  show (∑ k : Fin 4096, actArr m c (ix2 (⟨n.val * 2048 + s.val, hr⟩ : Fin 8192) k) * wTArr m c (ix2 k o)) + biasRow m c (ix2 (0 : Fin 1) o) = _
  rw [biasrow_apply]
  exact congrArg (· + (m ((c.tc : Thread nD τ).loc main_arg3)) (ix1 o)) (Finset.sum_congr rfl fun k _ => by rw [act_apply, wT_apply])

theorem result_eq (c : Dev nD) :
    shapeCast S4x2048x11008 (prod m c) shapeCasts_S8192x11008_S4x2048x11008
      = QLinear.linear (m ((c.tc : Thread nD τ).loc main_arg0)) (wdeq (m ((c.tc : Thread nD τ).loc main_arg1)) (m ((c.tc : Thread nD τ).loc main_arg2))) (m ((c.tc : Thread nD τ).loc main_arg3)) :=
  funext fun i => by rw [eq_ix3 i]; exact result_apply m c _ _ _

/-! ## The run, read -/

/-- Every weakly fair execution of the kernel's program ends with the result array at `linear` of the activations, the
    dequantized weight and the bias, and the four arguments as launched. -/
theorem run : θ_run defs (onTc (τ := τ) (main (F := Ideal))) ⟨m, fun _ => 0, ρ⟩ fun r => ∀ c : Dev nD,
      r.2.mem ((c.tc : Thread nD τ).loc main_v0) = QLinear.linear (m ((c.tc : Thread nD τ).loc main_arg0)) (wdeq (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(((h c).2 main_v0 (Pipeline.mem_restRefs_of main_v0 (by decide) (by decide))).trans (tail_eq m c)).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference computes `linear`.

  The reference multiplies the activations `x` (4 × 2048 × 4096) against the dequantized weight (11008 × 4096)
  contracting the feature axis of both, then adds the bias broadcast over batch and position. Read at an index
  `(b, s, o)` that is  (Σ i, x b s i · w o i) + bias o : the function `QLinear.linear` of `x`, of the weight the
  reference's own dequantization stage produces, and of the bias.
-/
import proofs.«430856_j52544629899270_3_alg».proof.Proof.Gen.ReferenceIdeal.Read
import proofs.«430856_j52544629899270_3_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The reference's result, as a function of its four arguments, is `linear` of the activations, the dequantized
    weight (the reference's multiply stage, a function of the packed nibbles and the scales) and the bias. -/
theorem result_eq (x : (⟨S4x2048x4096, .f32⟩ : BufTy).Contents (Elt Ideal)) (packed : (⟨S11008x2048, .i32⟩ : BufTy).Contents (Elt Ideal))
    (scale bias : (⟨S11008, .f32⟩ : BufTy).Contents (Elt Ideal)) :
    val_main_v19 (F := Ideal) x packed scale bias = QLinear.linear x (val_main_v15 (F := Ideal) packed scale) bias := by
  funext i
  have el : ∀ k : Fin 4096, lidx_main_v16 i k = ix3 (i 0) (i 1) k := fun k => funext fun a => Fin.ext (by
    match a with
    | ⟨0, _⟩ => rfl
    | ⟨1, _⟩ => rfl
    | ⟨2, _⟩ => rfl)
  have er : ∀ k : Fin 4096, ridx_main_v16 i k = ix2 (i 2) k := fun k => funext fun a => Fin.ext (by
    match a with
    | ⟨0, _⟩ => rfl
    | ⟨1, _⟩ => rfl)
  have eb : idx_main_v17 (idx_main_v18 i) = ix1 (i 2) := funext fun a => Fin.ext (by
    match a with
    | ⟨0, _⟩ => rfl)
  rw [val_main_v19_apply, val_main_v16_apply, val_main_v18_apply, val_main_v17_apply]
  simp only [el, er, eb]
  rfl

end Cert.ReferenceIdeal.RefValue

end
-- ==== Proof.lean ====
/-
  An int4-quantized linear layer:  y = x · dequant(packed, scale)ᵀ + bias.

  Both programs dequantize the weight the same way — each packed word holds two 4-bit values, low nibble first;
  7 is subtracted and the output channel's scale multiplied in — and then differ only in how the product is laid
  out. The kernel flattens the activations to (8192 × 4096), transposes the weight to (4096 × 11008), and computes
  the (8192 × 11008) product tile by tile on an 8 × 43 grid, each tile one product into a zero accumulator plus the
  bias row; the reference contracts the feature axis of the (4 × 2048 × 4096) activations against the (11008 × 4096)
  weight in one product and adds the broadcast bias. Over the extended reals a change of float format is the
  identity and both products are the plain sum over the 4096 features, so both results are, at (b, s, o),
      (Σ i, x b s i · w o i) + bias o
  — `QLinear.linear` of the activations, the dequantized weight and the bias. The two sums have the same terms in the
  same order of factors, so no law beyond the definitions is used and the inputs' finiteness is never opened.
  The three frames are the programs' runs with the results dropped; the idealization rewrote nothing.
-/
import proofs.«430856_j52544629899270_3_alg».proof.Defs
import proofs.«430856_j52544629899270_3_alg».proof.Proof.Gen.Kernel
import proofs.«430856_j52544629899270_3_alg».proof.Proof.Gen.Kernel.Skeleton
import proofs.«430856_j52544629899270_3_alg».proof.Proof.Gen.Kernel.Launch
import proofs.«430856_j52544629899270_3_alg».proof.Proof.Gen.Kernel.Points
import proofs.«430856_j52544629899270_3_alg».proof.Proof.Gen.Kernel.Frame
import proofs.«430856_j52544629899270_3_alg».proof.Proof.Gen.KernelIdeal
import proofs.«430856_j52544629899270_3_alg».proof.Proof.Gen.KernelIdeal.Skeleton
import proofs.«430856_j52544629899270_3_alg».proof.Proof.Gen.KernelIdeal.Launch
import proofs.«430856_j52544629899270_3_alg».proof.Proof.Gen.KernelIdeal.Points
import proofs.«430856_j52544629899270_3_alg».proof.Proof.Gen.KernelIdeal.Frame
import proofs.«430856_j52544629899270_3_alg».proof.Proof.Gen.ReferenceIdeal
import proofs.«430856_j52544629899270_3_alg».proof.Proof.Gen.ReferenceIdeal.Run
import proofs.«430856_j52544629899270_3_alg».proof.Proof.Gen.ReferenceIdeal.Read
import proofs.«430856_j52544629899270_3_alg».proof.Proof.Gen.Pre_finite_inputs
import proofs.«430856_j52544629899270_3_alg».proof.Proof.Spec
import proofs.«430856_j52544629899270_3_alg».proof.Proof.TileValue
import proofs.«430856_j52544629899270_3_alg».proof.Proof.ArrayValue
import proofs.«430856_j52544629899270_3_alg».proof.Proof.RefValue
import Idealize.ShloMosaic.Adequacy
import Idealize.ShloMosaic.Init

noncomputable section

namespace Cert.Proof

open Idealize.ShloMosaic Idealize.ShloMosaic.TcCoe Idealize.SL.Sem

/-- The two programs dequantize the weight by the same operations on the same shapes: the reference's multiply
    stage is the kernel's dequantized weight, as functions of the packed words and the scales. -/
theorem weights_agree (packed : (⟨Cert.ReferenceIdeal.S11008x2048, .i32⟩ : BufTy).Contents (Elt Ideal))
    (scale : (⟨Cert.ReferenceIdeal.S11008, .f32⟩ : BufTy).Contents (Elt Ideal)) :
    Cert.ReferenceIdeal.Read.val_main_v15 (F := Ideal) packed scale = Cert.KernelIdeal.Whole.wdeq packed scale := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both runs end with the result at `linear` of the activations, the
    dequantized weight and the bias: the kernel's by its tiles filling the product array, the reference's by its
    operations read at an index. -/
theorem algebraic : Cert.algebraic_KernelIdeal_ReferenceIdeal := by
  intro m ρ m' ρ' _ hagree
  refine ⟨fun c => QLinear.linear (m ((c.tc : Thread Cert.KernelIdeal.nD Cert.KernelIdeal.τ).loc Cert.KernelIdeal.main_arg0)) (Cert.KernelIdeal.Whole.wdeq (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, weights_agree,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
